-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x224x224 : Shape := ⟨4, ![16, 96, 224, 224]⟩
abbrev S_ : Shape := ⟨0, ![]⟩

class Facts : Prop where
  bcast_S_S16x96x224x224 : S_.BroadcastsInDim S16x96x224x224 (![] : Fin 0 → Fin S16x96x224x224.rank)
  reducesTo_S16x96x224x224_S_d0_1_2_3 : S16x96x224x224.ReducesTo [0, 1, 2, 3] S_
  h_S_ : 0 < S_.numel

variable [Facts]

def fn {F : FTy → Type} [FloatOps F] (main_arg0 : FVec F S16x96x224x224 .f32) : IVec S_ 1 :=
  let main_v0 : FVec F S16x96x224x224 .f32 := Host.absf main_arg0
  let main_cst : FVec F S_ .f32 := constant S_ .f32 0x7F800000#32
  let main_v1 : FVec F S16x96x224x224 .f32 := broadcastInDim S16x96x224x224 ![] bcast_S_S16x96x224x224 main_cst
  let main_v2 : IVec S16x96x224x224 1 := cmpf .olt main_v0 main_v1
  let main_c : IVec S_ 1 := constantI S_ 1 1#1
  let main_v3 : IVec S_ 1 := (fun x v => Host.reduce IntOp.andi x v reducesTo_S16x96x224x224_S_d0_1_2_3 h_S_) main_v2 main_c
  main_v3
-- ==== Kernel.lean ====
abbrev S16x96x224x224 : Shape := ⟨4, ![16, 96, 224, 224]⟩
abbrev S1536x224x224 : Shape := ⟨3, ![1536, 224, 224]⟩
abbrev S1536x223x223 : Shape := ⟨3, ![1536, 223, 223]⟩
abbrev S16x224x224 : Shape := ⟨3, ![16, 224, 224]⟩
abbrev S16x223x223 : Shape := ⟨3, ![16, 223, 223]⟩
abbrev S16x96x223x223 : Shape := ⟨4, ![16, 96, 223, 223]⟩

abbrev nBuf : Space → Nat
  | .hbm => 4
  | .vmem => 4
  | .smem => 0
  | _ => 0

abbrev bufTy : (tb : Table) → Fin (tcTables nBuf tb) → BufTy
  | .hbm, ⟨0, _⟩ => ⟨S16x96x224x224, .f32⟩
  | .hbm, ⟨1, _⟩ => ⟨S1536x224x224, .f32⟩
  | .hbm, ⟨2, _⟩ => ⟨S1536x223x223, .f32⟩
  | .hbm, ⟨3, _⟩ => ⟨S16x96x223x223, .f32⟩
  | .local _ .vmem, ⟨0, _⟩ => ⟨S16x224x224, .f32⟩
  | .local _ .vmem, ⟨1, _⟩ => ⟨S16x224x224, .f32⟩
  | .local _ .vmem, ⟨2, _⟩ => ⟨S16x223x223, .f32⟩
  | .local _ .vmem, ⟨3, _⟩ => ⟨S16x223x223, .f32⟩
  | _, _ => ⟨S16x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x223x223 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x96x224x224_S1536x224x224 : S16x96x224x224.ShapeCasts S1536x224x224
  inb_S16x224x224_S16x224x224_0_0_0 : ∀ a, (![0, 0, 0] : Fin 3 → Nat) a + S16x224x224.size a ≤ S16x224x224.size a
  h_S16x224x224 : 0 < S16x224x224.numel
  shapeCasts_S16x224x224_S16x224x224 : S16x224x224.ShapeCasts S16x224x224
  slices_S16x224x224_o0_0_0_S16x223x223 : S16x224x224.Slices ![0, 0, 0] S16x223x223
  slices_S16x224x224_o0_0_1_S16x223x223 : S16x224x224.Slices ![0, 0, 1] S16x223x223
  slices_S16x224x224_o0_1_0_S16x223x223 : S16x224x224.Slices ![0, 1, 0] S16x223x223
  slices_S16x224x224_o0_1_1_S16x223x223 : S16x224x224.Slices ![0, 1, 1] S16x223x223
  inb_S16x223x223_S16x223x223_0_0_0 : ∀ a, (![0, 0, 0] : Fin 3 → Nat) a + S16x223x223.size a ≤ S16x223x223.size a
  h_S16x223x223 : 0 < S16x223x223.numel
  shapeCasts_S1536x223x223_S16x96x223x223 : S1536x223x223.ShapeCasts S16x96x223x223
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x224x224.size a ≤ S1536x224x224.size a
  hwx0_0 : ∀ i : grid0.Coords, EltTy.bits .f32 = 32 ∨ (Rect.block (s := S1536x224x224) S16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x223x223.size a ≤ S1536x223x223.size a
  hwx0_1 : ∀ i : grid0.Coords, EltTy.bits .f32 = 32 ∨ (Rect.block (s := S1536x223x223) S16x223x223.size (cc0_transform_1 i) (hinb0_1 i)).WholeWords (EltTy.packing .f32)

variable [Facts₀]

abbrev win0_0 : Pipeline.Window sig grid0 :=
  Pipeline.Window.ofSpec (Memref.whole main_v0) S16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x223x223.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x96x224x224 : Shape := ⟨4, ![16, 96, 224, 224]⟩
abbrev S_ : Shape := ⟨0, ![]⟩
abbrev S16x96x223x223 : Shape := ⟨4, ![16, 96, 223, 223]⟩

abbrev nBuf : Space → Nat
  | .hbm => 4
  | .vmem => 0
  | .smem => 0
  | _ => 0

abbrev bufTy : (tb : Table) → Fin (tcTables nBuf tb) → BufTy
  | .hbm, ⟨0, _⟩ => ⟨S16x96x224x224, .f32⟩
  | .hbm, ⟨1, _⟩ => ⟨S_, .f32⟩
  | .hbm, ⟨2, _⟩ => ⟨S_, .f32⟩
  | .hbm, ⟨3, _⟩ => ⟨S16x96x223x223, .f32⟩
  | _, _ => ⟨S16x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x96x224x224_S16x96x223x223_w1s1p0_0_w1s1p0_0_w2s1p0_0_w2s1p0_0 : S16x96x224x224.ReduceWindows (![1, 1, 2, 2] : Fin 4 → Nat) ![1, 1, 1, 1] ![0, 0, 0, 0] ![0, 0, 0, 0] S16x96x223x223
  h_S_ : 0 < S_.numel

variable [Facts₀]

class Facts : Prop extends Facts₀ where

variable [Facts]
-- ==== Proof.PoolSpec.lean ====
/-
  Max pooling with a 2×2 window and stride 1 over the last two axes, as ONE function of the input array, index by
  index, on the extended reals: the output at (n, c, r, s) is the greatest of the four inputs at (n, c, r + dr, s + ds),
  dr, ds ∈ {0, 1}. Stated twice — on the rank-4 array [16, 96, 224, 224] the programs take and return, and on the rank-3
  array [1536, 224, 224] with the two leading axes merged, which is what the pipelined region sees — together with the
  fact that the two agree through the row-major reshapes.
-/
import Idealize.ShloMosaic.PureOps.Ideal
import Idealize.ShloMosaic.Lib.ValueIdx
import Idealize.ShloMosaic.Lib.Pipeline.Value

noncomputable section

namespace Cert.MaxPool

open Idealize.ShloMosaic Idealize.ShloMosaic.ValueIdx

abbrev Img4 : Shape := ⟨4, ![16, 96, 224, 224]⟩
abbrev Out4 : Shape := ⟨4, ![16, 96, 223, 223]⟩
abbrev Img3 : Shape := ⟨3, ![1536, 224, 224]⟩
abbrev Out3 : Shape := ⟨3, ![1536, 223, 223]⟩

/-- An output row (or column) number moved down (or right) by `d ∈ {0, 1}`: an input row (or column) number. -/
def shift (r : Fin 223) (d : Fin 2) : Fin 224 := ⟨r.val + d.val, by omega⟩

theorem shift_val (r : Fin 223) (d : Fin 2) : (shift r d).val = r.val + d.val := rfl

/-- The input position under corner `(dr, ds)` of the window whose top-left corner is the output position `j`. -/
def corner4 (j : Out4.Idx) (dr ds : Fin 2) : Img4.Idx := ix4 (j 0) (j 1) (shift (j 2) dr) (shift (j 3) ds)

/-- The same with the two leading axes merged. -/
def corner3 (j : Out3.Idx) (dr ds : Fin 2) : Img3.Idx := ix3 (j 0) (shift (j 1) dr) (shift (j 2) ds)

/-- 2×2 / stride-1 max pooling of a rank-4 array: the greatest of the window's four entries, the two of the upper row
    first. -/
def pool4 (x : Img4.Idx → EReal) : Out4.Idx → EReal := fun j =>
  max (max (x (corner4 j 0 0)) (x (corner4 j 0 1))) (max (x (corner4 j 1 0)) (x (corner4 j 1 1)))

/-- The same of a rank-3 array. -/
def pool3 (x : Img3.Idx → EReal) : Out3.Idx → EReal := fun j =>
  max (max (x (corner3 j 0 0)) (x (corner3 j 0 1))) (max (x (corner3 j 1 0)) (x (corner3 j 1 1)))

/-- The image number `n * 96 + c` of channel `c` of batch entry `n`. -/
def merge (n : Fin 16) (c : Fin 96) : Fin 1536 := ⟨n.val * 96 + c.val, by omega⟩

/-- Reading the merged input at a window corner of image `n * 96 + c` is reading the rank-4 input at the same corner of
    channel `c` of entry `n`: the two positions have one row-major number. -/
theorem reshape_corner (x : Img4.Idx → EReal) (h : Img4.ShapeCasts Img3) (j : Out4.Idx) (dr ds : Fin 2) :
    shapeCast Img3 x h (corner3 (ix3 (merge (j 0) (j 1)) (j 2) (j 3)) dr ds) = x (corner4 j dr ds) := by
  refine shapeCast_apply x h _ _ ?_
  rw [Shape.rowMajor_val_four, Shape.rowMajor_val_three]
  rfl

/-- Pooling commutes with merging the two leading axes: pooling the reshaped input and reshaping back is pooling the
    input. -/
theorem pool3_reshape (x : Img4.Idx → EReal) (h : Img4.ShapeCasts Img3) (h' : Out3.ShapeCasts Out4) :
    shapeCast Out4 (pool3 (shapeCast Img3 x h)) h' = pool4 x := by
  funext j
  refine (shapeCast_apply _ h' j (ix3 (merge (j 0) (j 1)) (j 2) (j 3)) ?_).trans ?_
  · rw [Shape.rowMajor_val_four, Shape.rowMajor_val_three]
    rfl
  · unfold pool3 pool4
    rw [reshape_corner, reshape_corner, reshape_corner, reshape_corner]

end Cert.MaxPool

end
-- ==== Proof.KernelPool.lean ====
/-
  What the idealized kernel program returns: 2×2 / stride-1 max pooling of its argument.
  The host merges the two leading axes ([16, 96, 224, 224] to [1536, 224, 224]); the pipelined region walks the 1536
  images sixteen at a time, 96 grid points; at point `t` the body reads images `16 t … 16 t + 15` whole and stores, for
  each of them, the greatest of every 2×2 window (four unit-stride slices of the block, joined by three maxima); the
  96 output blocks tile the [1536, 223, 223] result, which the host splits back to [16, 96, 223, 223]. Pooling acts
  image by image, so it commutes with the merging and the splitting (`pool3_reshape`).
-/
import proofs.«132206_j7988639171216_1_alg».proof.Proof.Gen.KernelIdeal.Frame
import proofs.«132206_j7988639171216_1_alg».proof.Proof.PoolSpec
import Idealize.ShloMosaic.Lib.Pipeline.Value
import Idealize.ShloMosaic.Lib.ValueIdx
import Idealize.ShloMosaic.Lib.StableHlo.Run

set_option maxRecDepth 16384

noncomputable section

namespace Cert.KernelIdeal.PoolValue

open Cert.KernelIdeal Cert.KernelIdeal.Gen Cert.MaxPool
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The body's stored value at an index -/

/-- A unit-stride slice of a block of sixteen images at offsets `(0, dr, ds)`, read at `(b, r, s)`: the block at
    `(b, r + dr, s + ds)`. -/
theorem slice_apply (off : Fin 3 → Nat) (dr ds : Fin 2) (hoff : off = ![0, dr.val, ds.val])
    (x : S16x224x224.Idx → EReal) (h : S16x224x224.Slices off S16x223x223) (b : Fin 16) (r s : Fin 223) :
    extractStridedSlice S16x223x223 off x h (ix3 b r s) = x (ix3 b (shift r dr) (shift s ds)) := by
  subst hoff
  refine extractStridedSlice_apply _ x h _ _ (fun a => ?_)
  match a with
  | ⟨0, _⟩ => show b.val = 0 + b.val; omega
  | ⟨1, _⟩ => show r.val + dr.val = dr.val + r.val; omega
  | ⟨2, _⟩ => show s.val + ds.val = ds.val + s.val; omega

/-- The value the body stores, at image `b`, row `r`, column `s` of the block: the greatest of the block's four entries
    in the window whose upper left corner is `(r, s)`. -/
theorem pay_apply (x0 : Vec Ideal S16x224x224 .f32) (b : Fin 16) (r s : Fin 223) :
    k0_pay1 (F := Ideal) x0 (ix3 b r s)
      = max (max (x0 (ix3 b (shift r 0) (shift s 0))) (x0 (ix3 b (shift r 0) (shift s 1))))
          (max (x0 (ix3 b (shift r 1) (shift s 0))) (x0 (ix3 b (shift r 1) (shift s 1)))) := by
  unfold k0_pay1
  simp only [maximumf_apply]
  rw [shapeCast_self]
  exact congrArg₂ max
    (congrArg₂ max (slice_apply ![0, 0, 0] 0 0 rfl x0 _ b r s) (slice_apply ![0, 0, 1] 0 1 rfl x0 _ b r s))
    (congrArg₂ max (slice_apply ![0, 1, 0] 1 0 rfl x0 _ b r s) (slice_apply ![0, 1, 1] 1 1 rfl x0 _ b r s))

/-! ## The blocks -/

/-- The merged input as the region finds it. -/
abbrev xin (c : Dev nD) : Img3.Idx → EReal := V m c main_v0

/-- It is the argument with its two leading axes merged. -/
theorem xin_eq (c : Dev nD) :
    xin m c = shapeCast S1536x224x224 (m ((c : Thread nD τ).loc main_arg0)) shapeCasts_S16x96x224x224_S1536x224x224 := by
  show StableHlo.after hostOps0 (fun b => m (c, b)) (Proc.devRef .tc main_v0) = _
  after_results
  rfl

/-- Both windows' block at grid point `t` starts at image `16 t`, row 0, column 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem point_lt (t : Fin cfg0.N) : t.val < 96 := lt_of_lt_of_eq t.isLt N_0

/-- Image `b` of the block at point `t` is image `16 t + b` of the array. -/
def img (t : Fin cfg0.N) (b : Fin 16) : Fin 1536 := ⟨t.val * 16 + b.val, by have := point_lt t; omega⟩

/-- The input block at point `t`, read at `(b, r, s)`: the merged input at `(16 t + b, r, s)`. -/
theorem iblk_apply (c : Dev nD) (t : Fin cfg0.N) (b : Fin 16) (r s : Fin 224) :
    iblk m c 0 t (ix3 b r s) = xin m c (ix3 (img t b) r s) := by
  obtain ⟨e0, e1, e2, -, -, -⟩ := idx_facts t
  show V m c main_v0 (((cfg0.win 0).blk t).view.emb (ix3 b r s)) = V m c main_v0 (ix3 (img t b) r s)
  refine congrArg (V m c main_v0) (funext fun a => Fin.ext ?_)
  match a with
  | ⟨0, _⟩ => show win0_0.index t (0 : Fin 3) * 16 + 1 * b.val = t.val * 16 + b.val; omega
  | ⟨1, _⟩ => show win0_0.index t (1 : Fin 3) * 224 + 1 * r.val = r.val; omega
  | ⟨2, _⟩ => show win0_0.index t (2 : Fin 3) * 224 + 1 * s.val = s.val; omega

/-- Position `(b, r, s)` of the output block at point `t` is position `(16 t + b, r, s)` of the output array. -/
theorem oblk_emb (t : Fin cfg0.N) (b : Fin 16) (r s : Fin 223) :
    (((cfg0.win 1).blk t).view.emb (ix3 b r s) : Out3.Idx) = ix3 (img t b) r s := by
  obtain ⟨-, -, -, e0, e1, e2⟩ := idx_facts t
  funext a; apply Fin.ext
  match a with
  | ⟨0, _⟩ => show win0_1.index t (0 : Fin 3) * 16 + 1 * b.val = t.val * 16 + b.val; omega
  | ⟨1, _⟩ => show win0_1.index t (1 : Fin 3) * 223 + 1 * r.val = r.val; omega
  | ⟨2, _⟩ => show win0_1.index t (2 : Fin 3) * 223 + 1 * s.val = s.val; omega

theorem hz : (![0, 0, 0] : Fin 3 → Nat) = fun _ => 0 := funext fun a => by fin_cases a <;> rfl

/-- WHAT POINT `t` WRITES BACK is block `t` of the pooled merged input. -/
theorem flushed_eq (c : Dev nD) (t : Fin cfg0.N) :
    (dats m 0 c).flushed 1 t = ((cfg0.win 1).blk t).view.read (Elt Ideal) (pool3 (xin m c)) := by
  show (cfg0.win 1).cut (grid0.coords t) ((dats m 0 c).after 1 t) = _
  rw [after0_1]
  unfold out0_1
  rw [View.canon_unit_zero hz]
  simp only [View.ld_unit_zero (S := S16x224x224) hz]
  funext y
  obtain ⟨b, r, s, rfl⟩ : ∃ (b : Fin 16) (r s : Fin 223), y = ix3 b r s := ⟨y 0, y 1, y 2, eq_ix3 y⟩
  show k0_pay1 (F := Ideal) (iblk m c 0 t) (ix3 b r s) = pool3 (xin m c) (((cfg0.win 1).blk t).view.emb (ix3 b r s))
  rw [oblk_emb t b r s]
  refine (pay_apply (iblk m c 0 t) b r s).trans ?_
  rw [iblk_apply, iblk_apply, iblk_apply, iblk_apply]
  rfl

/-! ## From the blocks to the array -/

/-- An index of the output array is in point `t`'s block iff each coordinate is in the block's range on its axis. -/
theorem mem_blk (t : Fin cfg0.N) (i : S1536x223x223.Idx) :
    i ∈ ((cfg0.win 1).blk t).view.set ↔ ∀ a : Fin 3, win0_1.index t a * S16x223x223.size a ≤ (i a).val
      ∧ (i a).val < win0_1.index t a * S16x223x223.size a + S16x223x223.size a := by
  show i ∈ ((View.whole main_v1).slice (win0_1.rect t)).set ↔ _
  rw [View.set_slice_whole, Rect.mem_set_unit]
  exact Iff.rfl

/-- Every position of the output array is written back by the point that holds its image: image `n` by point `n / 16`. -/
theorem cover (i : S1536x223x223.Idx) :
    ∃ t : Fin cfg0.N, (cfg0.win 1).flush t = true ∧ i ∈ ((cfg0.win 1).blk t).view.set := by
  have h0 : (i 0).val < 1536 := (i 0).isLt
  have h1 : (i 1).val < 223 := (i 1).isLt
  have h2 : (i 2).val < 223 := (i 2).isLt
  let t : Fin cfg0.N := ⟨(i 0).val / 16, by rw [show cfg0.N = 96 from N_0]; omega⟩
  obtain ⟨-, -, -, e0, e1, e2⟩ := idx_facts t
  have ht : t.val = (i 0).val / 16 := rfl
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 223 ≤ (i 1).val ∧ (i 1).val < win0_1.index t (1 : Fin 3) * 223 + 223; omega
  | ⟨2, _⟩ => show win0_1.index t (2 : Fin 3) * 223 ≤ (i 2).val ∧ (i 2).val < win0_1.index t (2 : Fin 3) * 223 + 223; omega

/-- THE OUTPUT ARRAY after the region: the pooled merged input. -/
theorem final (c : Dev nD) : (dats m 0 c).arrAt 1 cfg0.N = pool3 (xin m c) :=
  (dats m 0 c).arrAt_eq_of_cover 1 (pool3 (xin m c)) (fun t _ => flushed_eq m c t) cover

/-! ## The result -/

/-- The host's last line splits the output array's leading axis: @main's result is the pooled argument. -/
theorem result_eq (c : Dev nD) :
    Pipeline.afterTail₀ cfgs (dats m) 0 (V0 m) [hostOps1] c main_v2 = pool4 (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = pool3 (xin m c) :=
    (Pipeline.withArrays_arr spec0 launch0.win.arr_inj c _ _ 1).trans (final m c)
  rw [e, xin_eq]
  exact pool3_reshape _ _ _

/-- THE RUN, READ: every weakly fair execution of @main ends with the result at the pooled argument and the argument
    unchanged. -/
theorem run : θ_run defs (onTc (τ := τ) (main (F := Ideal))) ⟨m, fun _ => 0, ρ⟩ fun r => ∀ c : Dev nD,
      r.2.mem ((c.tc : Thread nD τ).loc main_v2) = pool4 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.PoolValue

end
-- ==== Proof.LibWindow2x2.lean ====
/-
  A `stablehlo.reduce_window` over a rank-4 array with window [1, 1, 2, 2], strides one and no padding (what
  `lax.reduce_window(x, init, op, (1, 1, 2, 2), (1, 1, 1, 1), "VALID")` lowers to), read at an index: the left fold of
  the body from the initial value over the window's four entries, the upper row first, each row left to right. For any
  body and any element type; the array's two trailing extents are `n2 + 1` and `n3 + 1`, the result's `n2` and `n3`.
-/
import Idealize.ShloMosaic.PureOps
import Idealize.ShloMosaic.Lib.ValueIdx

noncomputable section

namespace Idealize.ShloMosaic.Window2x2

open Idealize.ShloMosaic Idealize.ShloMosaic.ValueIdx

/-- The window's own shape: one position on each leading axis, two on each trailing one. -/
abbrev Win : Shape := ⟨4, ![1, 1, 2, 2]⟩

/-- A left fold over the four numbers below four, written out. -/
theorem foldl_finRange_four {β : Type} {n : Nat} (hn : n = 4) (g : β → Fin n → β) (v : β) :
    (List.finRange n).foldl g v
      = g (g (g (g v ⟨0, by omega⟩) ⟨1, by omega⟩) ⟨2, by omega⟩) ⟨3, by omega⟩ := by
  subst hn; rfl

theorem win_numel : Win.numel = 4 := by decide

/-- Position number `2 * dr + ds` of the window, in row-major order, is `(0, 0, dr, ds)`. -/
theorem win_pos (k : Fin Win.numel) (dr ds : Fin 2) (hk : k.val = dr.val * 2 + ds.val) :
    Win.rowMajor.symm k = ix4 (0 : Fin 1) (0 : Fin 1) dr ds := by
  rw [Equiv.symm_apply_eq]
  apply Fin.ext
  rw [Shape.rowMajor_val_four, hk]
  show dr.val * 2 + ds.val = (((0 : Fin 1).val * 1 + (0 : Fin 1).val) * 2 + dr.val) * 2 + ds.val
  simp

variable {α : Type} {n0 n1 n2 n3 : Nat}

/-- The array position under corner `(dr, ds)` of the window whose upper left corner is the result position `j`. -/
def corner (j : (⟨4, ![n0, n1, n2, n3]⟩ : Shape).Idx) (dr ds : Fin 2) : (⟨4, ![n0, n1, n2 + 1, n3 + 1]⟩ : Shape).Idx :=
  ix4 (j 0) (j 1)
    ⟨(j 2).val + dr.val, by have h : (j 2).val < n2 := (j 2).isLt; have := dr.isLt; omega⟩
    ⟨(j 3).val + ds.val, by have h : (j 3).val < n3 := (j 3).isLt; have := ds.isLt; omega⟩

/-- One step of the fold: at window position `(0, 0, dr, ds)` the position read is inside the array (there is no
    padding to fall into), and it is the corner. -/
theorem entry (x : (⟨4, ![n0, n1, n2 + 1, n3 + 1]⟩ : Shape).Idx → α) (v : α)
    (hr : (⟨4, ![n0, n1, n2, n3]⟩ : Shape).rank = (⟨4, ![n0, n1, n2 + 1, n3 + 1]⟩ : Shape).rank)
    (j : (⟨4, ![n0, n1, n2, n3]⟩ : Shape).Idx) (w : Win.Idx) (dr ds : Fin 2)
    (hw : w = ix4 (0 : Fin 1) (0 : Fin 1) dr ds) :
    (if hin : ∀ a : Fin 4, (![0, 0, 0, 0] : Fin 4 → Nat) a ≤ (j (a.cast hr.symm)).val * (![1, 1, 1, 1] : Fin 4 → Nat) a + (w a).val
          ∧ (j (a.cast hr.symm)).val * (![1, 1, 1, 1] : Fin 4 → Nat) a + (w a).val - (![0, 0, 0, 0] : Fin 4 → Nat) a
              < (⟨4, ![n0, n1, n2 + 1, n3 + 1]⟩ : Shape).size a
      then x (fun a => ⟨(j (a.cast hr.symm)).val * (![1, 1, 1, 1] : Fin 4 → Nat) a + (w a).val - (![0, 0, 0, 0] : Fin 4 → Nat) a, (hin a).2⟩)
      else v) = x (corner j dr ds) := by
  subst hw
  have hP : ∀ a : Fin 4, (j (a.cast hr.symm)).val * (![1, 1, 1, 1] : Fin 4 → Nat) a
      + (ix4 (0 : Fin 1) (0 : Fin 1) dr ds a).val - (![0, 0, 0, 0] : Fin 4 → Nat) a = (corner j dr ds a).val := fun a => by
    match a with
    | ⟨0, _⟩ => show (j 0).val * 1 + (0 : Fin 1).val - 0 = (j 0).val; simp
    | ⟨1, _⟩ => show (j 1).val * 1 + (0 : Fin 1).val - 0 = (j 1).val; simp
    | ⟨2, _⟩ => show (j 2).val * 1 + dr.val - 0 = (j 2).val + dr.val; simp
    | ⟨3, _⟩ => show (j 3).val * 1 + ds.val - 0 = (j 3).val + ds.val; simp
  have hlo : ∀ a : Fin 4, (![0, 0, 0, 0] : Fin 4 → Nat) a = 0 := by decide
  rw [dif_pos (fun a => ⟨by rw [hlo a]; exact Nat.zero_le _, by rw [hP a]; exact (corner j dr ds a).isLt⟩)]
  exact congrArg x (funext fun a => Fin.ext (hP a))

/-- THE WINDOWED REDUCTION AT AN INDEX: the body folded from the initial value over the window's four entries. -/
theorem reduceWindow_apply {u : Shape} (f : α → α → α) (x : (⟨4, ![n0, n1, n2 + 1, n3 + 1]⟩ : Shape).Idx → α)
    (init : u.Idx → α)
    (h : (⟨4, ![n0, n1, n2 + 1, n3 + 1]⟩ : Shape).ReduceWindows ![1, 1, 2, 2] ![1, 1, 1, 1] ![0, 0, 0, 0] ![0, 0, 0, 0]
      ⟨4, ![n0, n1, n2, n3]⟩)
    (hu : 0 < u.numel) (j : (⟨4, ![n0, n1, n2, n3]⟩ : Shape).Idx) :
    Host.reduceWindow f ![1, 1, 2, 2] ![1, 1, 1, 1] ![0, 0, 0, 0] ![0, 0, 0, 0] x init h hu j
      = f (f (f (f (init (Shape.Idx.first hu)) (x (corner j 0 0))) (x (corner j 0 1))) (x (corner j 1 0))) (x (corner j 1 1)) := by
  unfold Host.reduceWindow
  dsimp only
  rw [foldl_finRange_four win_numel]
  rw [entry x _ h.1 j _ 0 0 (win_pos _ 0 0 rfl), entry x _ h.1 j _ 0 1 (win_pos _ 0 1 rfl),
    entry x _ h.1 j _ 1 0 (win_pos _ 1 0 rfl), entry x _ h.1 j _ 1 1 (win_pos _ 1 1 rfl)]

end Idealize.ShloMosaic.Window2x2

end
-- ==== Proof.RefPool.lean ====
/-
  What the idealized reference returns: the same pooling. `lax.reduce_window` with `max` from −∞ over windows
  (1, 1, 2, 2), strides one, no padding, is at each output position the fold of `max` from −∞ over the window's four
  entries; −∞ is the least extended real, so it drops out, and `max` is associative, so the left fold
  `max (max (max a b) c) d` is the kernel's balanced `max (max a b) (max c d)`.
-/
import proofs.«132206_j7988639171216_1_alg».proof.Proof.Gen.ReferenceIdeal.Run
import proofs.«132206_j7988639171216_1_alg».proof.Proof.PoolSpec
import proofs.«132206_j7988639171216_1_alg».proof.Proof.LibWindow2x2
import Idealize.ShloMosaic.Lib.Pipeline.Value

noncomputable section

namespace Cert.ReferenceIdeal.PoolValue

open Cert.ReferenceIdeal Cert.ReferenceIdeal.Gen Cert.MaxPool
open Idealize.ShloMosaic Idealize.ShloMosaic.TcCoe Idealize.ShloMosaic.ValueIdx Idealize.SL.Sem

/-- The reduction's initial value: the f32 pattern of −∞, the least extended real. -/
theorem init_bot (hb : S_.BroadcastsInDim S_ (![] : Fin 0 → Fin S_.rank)) (hu : 0 < S_.numel) :
    broadcastInDim S_ ![] hb (constant (F := Ideal) S_ .f32 0xFF800000#32) (Shape.Idx.first hu) = (⊥ : EReal) := by
  rw [broadcastInDim_apply _ hb _ _ (fun a => a.elim0) (fun a => a.elim0)]
  show Ideal.ofBits .f32 0xFF800000#32 = ⊥
  simp [Ideal.ofBits, Ideal.ieee]

/-- The library's window corner, at these extents, is the specification's. -/
theorem corner_eq (j : Out4.Idx) (dr ds : Fin 2) :
    (Window2x2.corner (n0 := 16) (n1 := 96) (n2 := 223) (n3 := 223) j dr ds : Img4.Idx) = corner4 j dr ds := rfl

/-- THE REFERENCE'S TERM IS THE POOLING: index by index, the windowed `max` from −∞ is the greatest of the four entries. -/
theorem reduceWindow_eq_pool4 (x : Img4.Idx → EReal)
    (hb : S_.BroadcastsInDim S_ (![] : Fin 0 → Fin S_.rank))
    (h : Img4.ReduceWindows (![1, 1, 2, 2] : Fin 4 → Nat) ![1, 1, 1, 1] ![0, 0, 0, 0] ![0, 0, 0, 0] Out4)
    (hu : 0 < S_.numel) :
    Host.reduceWindow (FloatOps.maximumf (F := Ideal) (φ := .f32)) ![1, 1, 2, 2] ![1, 1, 1, 1] ![0, 0, 0, 0] ![0, 0, 0, 0] x
        (broadcastInDim S_ ![] hb (constant (F := Ideal) S_ .f32 0xFF800000#32)) h hu
      = pool4 x := by
  funext j
  refine (Window2x2.reduceWindow_apply (n0 := 16) (n1 := 96) (n2 := 223) (n3 := 223) _ x _ h hu j).trans ?_
  rw [init_bot hb hu, corner_eq, corner_eq, corner_eq, corner_eq]
  show max (max (max (max ⊥ _) _) _) _ = max (max _ _) (max _ _)
  rw [bot_sup_eq, max_assoc]

/-- THE RUN, READ: every weakly fair execution of the reference ends with the result at the pooled argument and the
    argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = pool4 (m ((c.tc : Thread nD τ).loc main_arg0))
      ∧ r.2.mem ((c.tc : Thread nD τ).loc main_arg0) = m ((c.tc : Thread nD τ).loc main_arg0) :=
  (θ_run defs _ _).mono (fun _ h c => ⟨(h c).1.trans (reduceWindow_eq_pool4 _ _ _ _), (h c).2⟩)
    (Cert.ReferenceIdeal.Value.run (F := Ideal) m ρ)

end Cert.ReferenceIdeal.PoolValue

end
-- ==== Proof.lean ====
/-
  The kernel and the reference are both 2×2 / stride-1 max pooling over the last two axes of a [16, 96, 224, 224]
  array. The kernel merges the two leading axes, pools sixteen images per grid point — the greatest of four shifted
  slices of the block, `max (max a b) (max c d)` — and splits the leading axis back; the reference is one
  `reduce_window` with `max` from −∞. On the extended reals −∞ is the least element and `max` is associative, so at
  every output position both are the greatest of the same four inputs (`Cert.MaxPool.pool4`): no finiteness of the input
  is used. The three frames are the generated frame runs (the reference's is its run with the result dropped); the
  idealization rewrote nothing, so `preserves` is trivial.
-/
import proofs.«132206_j7988639171216_1_alg».proof.Defs
import proofs.«132206_j7988639171216_1_alg».proof.Proof.Gen.Kernel
import proofs.«132206_j7988639171216_1_alg».proof.Proof.Gen.Kernel.Skeleton
import proofs.«132206_j7988639171216_1_alg».proof.Proof.Gen.Kernel.Launch
import proofs.«132206_j7988639171216_1_alg».proof.Proof.Gen.Kernel.Points
import proofs.«132206_j7988639171216_1_alg».proof.Proof.Gen.Kernel.Frame
import proofs.«132206_j7988639171216_1_alg».proof.Proof.Gen.KernelIdeal
import proofs.«132206_j7988639171216_1_alg».proof.Proof.Gen.KernelIdeal.Skeleton
import proofs.«132206_j7988639171216_1_alg».proof.Proof.Gen.KernelIdeal.Launch
import proofs.«132206_j7988639171216_1_alg».proof.Proof.Gen.KernelIdeal.Points
import proofs.«132206_j7988639171216_1_alg».proof.Proof.Gen.KernelIdeal.Frame
import proofs.«132206_j7988639171216_1_alg».proof.Proof.Gen.ReferenceIdeal
import proofs.«132206_j7988639171216_1_alg».proof.Proof.Gen.ReferenceIdeal.Run
import proofs.«132206_j7988639171216_1_alg».proof.Proof.Gen.Pre_finite_inputs
import proofs.«132206_j7988639171216_1_alg».proof.Proof.KernelPool
import proofs.«132206_j7988639171216_1_alg».proof.Proof.RefPool
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the pooled argument in their result: the kernel's run and the reference's run, from
    memories that agree on the argument. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.MaxPool.pool4 (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.PoolValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
